-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) (main_arg2 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608 .f32 := Host.absf main_arg2
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  main_v13
-- ==== Kernel.lean ====
abbrev S8388608 : Shape := ⟨1, ![8388608]⟩
abbrev S65536x128 : Shape := ⟨2, ![65536, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S65536x128, .f32⟩
  | .hbm, ⟨4, _⟩ => ⟨S65536x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8388608_S65536x128 : S8388608.ShapeCasts S65536x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S8388608, .i1⟩
  | .hbm, ⟨4, _⟩ => ⟨S_, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S8388608, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.KPieces.lean ====
/-
  What one run of the kernel body leaves behind, for any float instance.

  The body keeps a running count in a one-element scratch buffer. At the grid's first point it first stores the
  zero block there; at every point it then loads the two input blocks and the scratch, stores
  "scratch + this block's total" back into the scratch, loads the scratch once more and stores that into the output
  block. So after the body both the scratch and the output block hold the same one-element vector:

    first point :  step ant syn zero          (the scratch read back after the zero store is the zero block)
    later points:  step ant syn previous      (the scratch still holds what the point before left)

  where `step` is the body's one arithmetic term (the generated `k0_pay2`: its first argument is the block of the
  SECOND input window, which the body loads first) and `zero` the generated `k0_pay1`. The four lemmas below say
  exactly this of the four generated contents terms (two cases, scratch and output each). Every store and every load
  goes through the whole one-element (or whole block) rectangle at offset zero, so a store leaves its payload and a
  load reads the contents.
-/
import proofs.«118050_j44487271252810_1_alg».proof.Defs
import proofs.«118050_j44487271252810_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of every access of the body: zero on both axes. -/
theorem off_zero : (![0, 0] : Fin 2 → Nat) = fun _ => 0 := funext fun a => by fin_cases a <;> rfl

/-- A load through the whole shape of what a list of stores left, when the LAST store (the list's head) went through the
    whole shape: that store's payload. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

section
variable (c : Dev nD) (i : grid0.Coords) (a1 : Memref sig .tc .vmem S4096x128 .f32) (h1 : a1.IsWhole)
  (a2 : Memref sig .tc .vmem S4096x128 .f32) (h2 : a2.IsWhole) (a3 : Memref sig .tc .vmem S1x1 .f32) (h3 : a3.IsWhole)
  (a4 : Memref sig .tc .vmem S1x1 .f32) (h4 : a4.IsWhole)

/-- A later point leaves in the scratch the step over what it found there. -/
theorem scratch_later (hc : ¬cond0_0 i) (x0 x1 : Vec F S4096x128 .f32) (xs0 : Vec F S1x1 .f32) :
    sout0_B_0 c i a1 h1 a2 h2 a3 h3 a4 h4 hc x0 x1 xs0 = k0_pay2 x1 x0 xs0 := by
  unfold sout0_B_0
  rw [View.read_writes_eq_canon _ _ _ (scover0_B_0 c i a1 h1 a2 h2 a3 h3 a4 h4 hc x0 x1 xs0)]
  unfold kernelRun0_B
  dsimp only
  sl_unfold_words
  rw [View.canon_unit_zero (S := S1x1) off_zero]
  simp only [View.readAt_eq_ld, h1.read_unread, h2.read_unread, h4.read_unread,
    View.ld_unit_zero (S := S4096x128) off_zero, View.ld_unit_zero (S := S1x1) off_zero]

/-- … and the same in the output block, which it fills from the scratch. -/
theorem out_later (hc : ¬cond0_0 i) (x0 x1 : Vec F S4096x128 .f32) (xs0 : Vec F S1x1 .f32) :
    out0_B_2 c i a1 h1 a2 h2 a3 h3 a4 h4 hc x0 x1 xs0 = k0_pay2 x1 x0 xs0 := by
  unfold out0_B_2
  rw [View.read_writes_eq_canon _ _ _ (cover0_B_2 c i a1 h1 a2 h2 a3 h3 a4 h4 hc x0 x1 xs0)]
  unfold kernelRun0_B
  dsimp only
  sl_unfold_words
  rw [View.canon_unit_zero (S := S1x1) off_zero, View.readCov_unit_zero (S := S1x1) _ off_zero]
  simp only [View.readAt_eq_ld, h1.read_unread, h2.read_unread, h4.read_unread,
    View.ld_unit_zero (S := S4096x128) off_zero, View.ld_unit_zero (S := S1x1) off_zero]

/-- The first point leaves in the scratch the step over the zero block it has just stored there. -/
theorem scratch_first (hc : cond0_0 i) (x0 x1 : Vec F S4096x128 .f32) :
    sout0_A_0 c i a1 h1 a2 h2 a3 h3 a4 h4 hc x0 x1 = k0_pay2 x1 x0 k0_pay1 := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S1x1) off_zero, View.readCov_unit_zero (S := S1x1) _ off_zero]
  simp only [View.readAt_eq_ld, h1.read_unread, h2.read_unread,
    View.ld_unit_zero (S := S4096x128) off_zero]

/-- … and the same in the output block. -/
theorem out_first (hc : cond0_0 i) (x0 x1 : Vec F S4096x128 .f32) :
    out0_A_2 c i a1 h1 a2 h2 a3 h3 a4 h4 hc x0 x1 = k0_pay2 x1 x0 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero (S := S1x1) off_zero, readCov_last_whole (S := S1x1) _ off_zero,
    View.readCov_unit_zero (S := S1x1) _ off_zero]
  simp only [View.readAt_eq_ld, h1.read_unread, h2.read_unread,
    View.ld_unit_zero (S := S4096x128) off_zero]

end

end Cert.KernelIdeal.Pieces

end
-- ==== Proof.Sums.lean ====
/-
  Finite sums in a commutative additive monoid, re-indexed: the two facts about sums that the comparison of a
  blocked accumulation with one flat sum rests on. Nothing here mentions a program.

  * a sum over the rows of a block and, inside each row, over its lanes is the sum over the block's row-major
    offsets `r * L + l`;
  * the sum over the first `(n + 1) * B` offsets is the sum over the first `n * B` of them plus the sum over the
    next `B`, those being `n * B + j`.

  Only commutativity and associativity of `+` are used, so both hold on the extended reals with no finiteness
  assumption.
-/
import Mathlib.Algebra.BigOperators.Fin
import Mathlib.Algebra.BigOperators.Group.Finset.Basic
import Mathlib.Logic.Equiv.Fin.Basic

namespace Cert.Sums

open Finset

variable {M : Type*} [AddCommMonoid M]

/-- Rows then lanes, or the row-major offset: the pair `(r, l)` and the offset `r * L + l` correspond one to one
    (`finProdFinEquiv`), and a finite sum does not depend on the order of its terms. -/
theorem sum_rows_lanes (R L : ℕ) (g : ℕ → M) :
    ∑ r : Fin R, ∑ l : Fin L, g (r.val * L + l.val) = ∑ j ∈ range (R * L), g j := by
  rw [← Fin.sum_univ_eq_sum_range, ← finProdFinEquiv.sum_comp, Fintype.sum_prod_type]
  refine Finset.sum_congr rfl fun r _ => Finset.sum_congr rfl fun l _ => ?_
  congr 1
  simp only [finProdFinEquiv_apply_val]
  rw [Nat.mul_comm, Nat.add_comm]

/-- One more block: the first `(n + 1) * B` offsets are the first `n * B` followed by `n * B + j`, `j < B`. -/
theorem sum_prefix_succ (B : ℕ) (g : ℕ → M) (n : ℕ) :
    ∑ j ∈ range ((n + 1) * B), g j = ∑ j ∈ range (n * B), g j + ∑ j ∈ range B, g (n * B + j) := by
  rw [Nat.succ_mul, Finset.sum_range_add]

end Cert.Sums
-- ==== Proof.Spec.lean ====
/-
  The common value of the two programs, as mathematics over the extended reals.

  Both programs look at the 8388608 pairs `(syn j, ant j)`, give a pair the value one when `ant j > syn j` and
  zero otherwise, add these values up starting from zero, divide by 2^23 and negate. They differ only in the order
  of the additions: the reference adds the 8388608 values in one sum; the kernel walks over 16 blocks of 4096 rows
  of 128 lanes, adds the lanes of each row, then the rows, and adds each block's total to a running count.

  This file fixes the vocabulary both sides are compared through:

  * `pick a s` — the value of one pair;
  * `term syn ant j` — the value of pair number `j` (zero past the end, so that it is a function on all naturals
    and the lemmas on sums over ranges apply);
  * `count syn ant n` — zero plus the values of the first `n` pairs;
  * `result syn ant` — the count of all pairs put through the programs' common last two operations.

  and the two facts about `count` the kernel's induction over its grid uses: what one block adds
  (`block_total`) and how the count grows by a block (`count_succ`). Addition on the extended reals is commutative
  and associative, which is all these use, so nothing here needs the inputs to be finite.
-/
import Idealize.ShloMosaic.PureOps.Ideal
import Idealize.ShloMosaic.Lib.ValueIdx
import proofs.«118050_j44487271252810_1_alg».proof.Proof.Sums

noncomputable section

namespace Cert.Spec

open Idealize.ShloMosaic Idealize.ShloMosaic.ValueIdx Finset

/-- The flat arrays' shape. -/
abbrev Flat : Shape := ⟨1, ![8388608]⟩

/-- The number of pairs in one block of the kernel's grid: 4096 rows of 128 lanes. -/
abbrev blockLen : ℕ := 524288

/-- One pair's value: the word of `1.0` when `a > s` holds in the order of the extended reals, the word of `0.0`
    otherwise. The comparison and the two words are left as the programs print them: both sides use the same. -/
def pick (a s : EReal) : EReal :=
  Scalar.select (FloatOps.cmpf (F := Ideal) (φ := .f32) .ogt a s)
    (Ideal.ofBits .f32 0x3F800000#32) (Ideal.ofBits .f32 0x00000000#32)

/-- The value of pair number `j`, zero from 8388608 on. -/
def term (syn ant : Flat.Idx → EReal) (j : ℕ) : EReal :=
  if h : j < 8388608 then pick (ant (ix1 ⟨j, h⟩)) (syn (ix1 ⟨j, h⟩)) else 0

theorem term_of_lt (syn ant : Flat.Idx → EReal) (j : ℕ) (h : j < 8388608) :
    term syn ant j = pick (ant (ix1 ⟨j, h⟩)) (syn (ix1 ⟨j, h⟩)) := dif_pos h

/-- The word of `0.0` plus the values of the first `n` pairs. -/
def count (syn ant : Flat.Idx → EReal) (n : ℕ) : EReal :=
  Ideal.ofBits .f32 0x00000000#32 + ∑ j ∈ range n, term syn ant j

/-- A rank-1 index set is its one coordinate's range, so a sum over it is the sum over that coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The reference's one sum: the values of all pairs, summed over the flat index set, is the sum of `term` over the
    first 8388608 naturals. -/
theorem sum_all (syn ant : Flat.Idx → EReal) :
    ∑ i : Flat.Idx, pick (ant i) (syn i) = ∑ j ∈ range 8388608, term syn ant j := by
  rw [sum_idx1, ← Fin.sum_univ_eq_sum_range]
  exact Finset.sum_congr rfl fun a _ => (term_of_lt syn ant a.val a.isLt).symm

/-- One block's total, rows then lanes, is the sum of `term` over the block's 524288 consecutive pairs: block `t`
    holds the pairs `t * 524288 + r * 128 + l`. -/
theorem block_total (syn ant : Flat.Idx → EReal) (t : ℕ) :
    ∑ r : Fin 4096, ∑ l : Fin 128, term syn ant (t * blockLen + (r.val * 128 + l.val))
      = ∑ j ∈ range blockLen, term syn ant (t * blockLen + j) :=
  Cert.Sums.sum_rows_lanes 4096 128 fun j => term syn ant (t * blockLen + j)

/-- The count after one more block. -/
theorem count_succ (syn ant : Flat.Idx → EReal) (n : ℕ) :
    count syn ant ((n + 1) * blockLen)
      = count syn ant (n * blockLen) + ∑ j ∈ range blockLen, term syn ant (n * blockLen + j) := by
  unfold count
  rw [Cert.Sums.sum_prefix_succ, add_assoc]

/-- The count before the first block is the word of `0.0`. -/
theorem count_zero (syn ant : Flat.Idx → EReal) :
    count syn ant (0 * blockLen) = Ideal.ofBits .f32 0x00000000#32 := by
  unfold count
  rw [Nat.zero_mul, Finset.range_zero, Finset.sum_empty, add_zero]

/- From here on `count` and `term` are used only through the lemmas above. -/
attribute [irreducible] count term

/-- The scalar shape of both programs' result. -/
abbrev Scalar0 : Shape := ⟨0, ![]⟩

/-- The last two host operations, the same in both programs: divide by the word of 2^23 and negate. Never opened:
    the two programs are compared before it. -/
def finish (x : Scalar0.Idx → EReal) : Scalar0.Idx → EReal :=
  Host.negf (F := Ideal) (φ := .f32)
    (Host.divf (F := Ideal) (φ := .f32) x (constant (F := Ideal) Scalar0 .f32 0x4B000000#32))

/-- The common result: the count of all 8388608 pairs, divided by 2^23 and negated. -/
def result (syn ant : Flat.Idx → EReal) : Scalar0.Idx → EReal :=
  finish fun _ => count syn ant 8388608

end Cert.Spec

end
-- ==== Proof.KStep.lean ====
/-
  The body's one arithmetic term, read on the extended reals.

  `step ant syn prev` (the generated `k0_pay2`) is a one-element vector. Its element is

      prev + ∑ r < 4096, ∑ l < 128, pick (ant (r, l)) (syn (r, l))

  : the body compares the two blocks element by element, selects the word of one or of zero, adds the 128 lanes of
  every row (a reduction along the second axis, started at zero), views the 4096 row totals as a column, adds them
  (a reduction along the first axis), views the result as a one-by-one block and adds it to the scratch's contents.
  On the extended reals each reduction along one axis is the finite sum over that axis's coordinate; the casts
  between shapes keep the row-major position, which for a column or a one-element vector is just the row number.
-/
import proofs.«118050_j44487271252810_1_alg».proof.Defs
import proofs.«118050_j44487271252810_1_alg».proof.Proof.Gen.KernelIdeal.Skeleton
import proofs.«118050_j44487271252810_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Step

open Cert.KernelIdeal Cert.KernelIdeal.Gen Cert.Spec

/-- The zero block's element is the word of `0.0`. -/
theorem zero_apply (i : S1x1.Idx) : k0_pay1 (F := Ideal) i = Ideal.ofBits .f32 0x00000000#32 := by
  unfold k0_pay1
  rw [shapeCast_self]
  rfl

/-- The step's element: what was there plus the block's total, rows then lanes. -/
theorem step_apply (ant syn : Vec Ideal S4096x128 .f32) (prev : Vec Ideal S1x1 .f32) (i : S1x1.Idx) :
    k0_pay2 (F := Ideal) ant syn prev i
      = prev i + ∑ r : Fin 4096, ∑ l : Fin 128, pick (ant (ix2 r l)) (syn (ix2 r l)) := by
  unfold k0_pay2
  simp only [shapeCast_self]
  refine congrArg (prev i + ·) ?_
  -- the one-by-one view of the one-element vector of the rows' total
  refine (shapeCast_apply _ shapeCasts_S1_S1x1 i (ix1 (0 : Fin 1)) ?_).trans ?_
  · rw [Shape.rowMajor_val_one, Shape.rowMajor_val_two]
    have h0 := idx2_lt0 i
    have h1 := idx2_lt1 i
    show (0 : ℕ) = (i 0).val * 1 + (i 1).val
    omega
  -- the rows' total: the sum over the row number of the column of row totals
  refine (Ideal.multiReduction_add_single _ _ reduces_S4096x1_S1 _ _ (ix1 (0 : Fin 1))).trans ?_
  refine Finset.sum_congr rfl fun r _ => ?_
  -- the column view of the vector of row totals keeps the row number
  refine (shapeCast_apply _ shapeCasts_S4096_S4096x1 _ (ix1 r) ?_).trans ?_
  · rw [Shape.rowMajor_val_one, Shape.rowMajor_val_two]
    show r.val = r.val * 1 + 0
    omega
  -- a row's total: the sum over the lane
  refine (Ideal.multiReduction_add_single _ _ reduces_S4096x128_S4096 _ _ (ix1 r)).trans ?_
  refine Finset.sum_congr rfl fun l _ => ?_
  -- row r with lane l put back is the element (r, l) of the block
  have e : reduces_S4096x128_S4096.lift (ix1 r) l = ix2 r l :=
    funext fun a => Fin.ext (match a with | ⟨0, _⟩ => rfl | ⟨1, _⟩ => rfl)
  rw [e]
  rfl

end Cert.KernelIdeal.Step

end
-- ==== Proof.KBlocks.lean ====
/-
  Where an element of an input block comes from, for any float instance.

  The host reshapes each flat score array of 8388608 elements to 65536 rows of 128 lanes; the kernel's grid point `t`
  reads rows `4096 t … 4096 t + 4095` of both reshaped arrays (block index `(t, 0)`). A reshape keeps the row-major
  position, so element `(r, l)` of the block at point `t` is element

      (4096 t + r) * 128 + l  =  t * 524288 + (r * 128 + l)

  of the flat array. Window 0 stages the reshaped SECOND argument of the program (the synonymy scores), window 1 the
  reshaped THIRD (the antonymy scores); the first argument is not read at all.
-/
import proofs.«118050_j44487271252810_1_alg».proof.Defs
import proofs.«118050_j44487271252810_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The two input blocks at a grid point, typed by their literal shape. -/
abbrev synBlk (c : Dev nD) (t : Fin cfg0.N) : Vec F S4096x128 .f32 := iblk m c 0 t
abbrev antBlk (c : Dev nD) (t : Fin cfg0.N) : Vec F S4096x128 .f32 := iblk m c 1 t

/-- A grid point's flat offset plus an offset inside its block stays inside the flat array. -/
theorem flat_lt (t : Fin cfg0.N) (r : Fin 4096) (l : Fin 128) : t.val * 524288 + (r.val * 128 + l.val) < 8388608 := by
  have := t.isLt; have : cfg0.N = 16 := N_0; omega

/-- The region finds the first window's array at the reshaped synonymy scores … -/
theorem arr_syn (c : Dev nD) : (V m c main_v0 : S65536x128.Idx → Elt F .f32)
    = shapeCast S65536x128 (m ((c : Thread nD τ).loc main_arg1)) shapeCasts_S8388608_S65536x128 := by
  show StableHlo.after hostOps0 (fun b => m (c, b)) (Proc.devRef .tc main_v0) = _
  after_results
  rfl

/-- … and the second window's at the reshaped antonymy scores. -/
theorem arr_ant (c : Dev nD) : (V m c main_v1 : S65536x128.Idx → Elt F .f32)
    = shapeCast S65536x128 (m ((c : Thread nD τ).loc main_arg2)) shapeCasts_S8388608_S65536x128 := by
  show StableHlo.after hostOps0 (fun b => m (c, b)) (Proc.devRef .tc main_v1) = _
  after_results
  rfl

/-- Both windows' block index at point `t` is `(t, 0)`: decided over the sixteen points. -/
theorem index_syn : ∀ t : Fin cfg0.N, win0_0.index t 0 = t.val ∧ win0_0.index t 1 = 0 :=
  (by decide +kernel : ∀ t : Fin grid0.N, win0_0.index t 0 = t.val ∧ win0_0.index t 1 = 0)
theorem index_ant : ∀ t : Fin cfg0.N, win0_1.index t 0 = t.val ∧ win0_1.index t 1 = 0 :=
  (by decide +kernel : ∀ t : Fin grid0.N, win0_1.index t 0 = t.val ∧ win0_1.index t 1 = 0)

/-- A reshaped flat array read at row `4096 t + r`, lane `l`. -/
theorem reshaped_apply (x : S8388608.Idx → Elt F .f32) (t : Fin cfg0.N) (r : Fin 4096) (l : Fin 128)
    (h : t.val * 4096 + r.val < 65536) :
    shapeCast S65536x128 x shapeCasts_S8388608_S65536x128 (ix2 ⟨t.val * 4096 + r.val, h⟩ l)
      = x (ix1 ⟨t.val * 524288 + (r.val * 128 + l.val), flat_lt t r l⟩) := by
  refine shapeCast_apply _ shapeCasts_S8388608_S65536x128 _ _ ?_
  rw [Shape.rowMajor_val_one, Shape.rowMajor_val_two]
  show t.val * 524288 + (r.val * 128 + l.val) = (t.val * 4096 + r.val) * 128 + l.val
  omega

/-- Element `(r, l)` of the synonymy block at point `t`. -/
theorem synBlk_apply (c : Dev nD) (t : Fin cfg0.N) (r : Fin 4096) (l : Fin 128) :
    synBlk m c t (ix2 r l)
      = m ((c : Thread nD τ).loc main_arg1) (ix1 ⟨t.val * 524288 + (r.val * 128 + l.val), flat_lt t r l⟩) := by
  have h : t.val * 4096 + r.val < 65536 := by have := t.isLt; have : cfg0.N = 16 := N_0; omega
  refine Eq.trans ?_ (reshaped_apply (m ((c : Thread nD τ).loc main_arg1)) t r l h)
  rw [← arr_syn]
  unfold synBlk iblk
  rw [View.read_apply]
  show V m c main_v0 _ = V m c main_v0 _
  congr 1
  funext a
  apply Fin.ext
  match a with
  | ⟨0, _⟩ => show win0_0.index t 0 * 4096 + 1 * r.val = t.val * 4096 + r.val; rw [(index_syn t).1]; omega
  | ⟨1, _⟩ => show win0_0.index t 1 * 128 + 1 * l.val = l.val; rw [(index_syn t).2]; omega

/-- Element `(r, l)` of the antonymy block at point `t`. -/
theorem antBlk_apply (c : Dev nD) (t : Fin cfg0.N) (r : Fin 4096) (l : Fin 128) :
    antBlk m c t (ix2 r l)
      = m ((c : Thread nD τ).loc main_arg2) (ix1 ⟨t.val * 524288 + (r.val * 128 + l.val), flat_lt t r l⟩) := by
  have h : t.val * 4096 + r.val < 65536 := by have := t.isLt; have : cfg0.N = 16 := N_0; omega
  refine Eq.trans ?_ (reshaped_apply (m ((c : Thread nD τ).loc main_arg2)) t r l h)
  rw [← arr_ant]
  unfold antBlk iblk
  rw [View.read_apply]
  show V m c main_v1 _ = V m c main_v1 _
  congr 1
  funext a
  apply Fin.ext
  match a with
  | ⟨0, _⟩ => show win0_1.index t 0 * 4096 + 1 * r.val = t.val * 4096 + r.val; rw [(index_ant t).1]; omega
  | ⟨1, _⟩ => show win0_1.index t 1 * 128 + 1 * l.val = l.val; rw [(index_ant t).2]; omega

end Cert.KernelIdeal.Blocks

end
-- ==== Proof.KAcc.lean ====
/-
  The running count, point by point, on the extended reals.

  After the body at grid point `n` (counted from zero) the scratch buffer and the output block both hold the
  one-element vector whose element is

      count syn ant ((n + 1) * 524288)

  : the word of `0.0` plus the values of the first `(n + 1) * 524288` pairs. By induction on the point. At the
  first point the body resets the scratch to the zero block, which is the count of no pairs, and adds block 0's total;
  at a later point it finds the count of the first `n` blocks and adds block `n`'s total. A block's total, rows then
  lanes, is the sum over the block's 524288 consecutive pairs (`Spec.block_total`), and a count grows by a block
  exactly so (`Spec.count_succ`).
-/
import proofs.«118050_j44487271252810_1_alg».proof.Proof.KPieces
import proofs.«118050_j44487271252810_1_alg».proof.Proof.KStep
import proofs.«118050_j44487271252810_1_alg».proof.Proof.KBlocks

noncomputable section

open Idealize.ShloMosaic Idealize.ShloMosaic.TcCoe Idealize.SL.Sem Idealize.ShloMosaic.ValueIdx

namespace Cert.KernelIdeal.Acc

open Cert.KernelIdeal Cert.KernelIdeal.Gen Cert.Spec Cert.KernelIdeal.Blocks

variable (m : (ℓ : Loc nD τ sig) → Buf (Elt Ideal) ℓ)

/-- The two score arrays as the kernel is launched with them: its second and third arguments. -/
abbrev syn (c : Dev nD) : Flat.Idx → EReal := m ((c : Thread nD τ).loc main_arg1)
abbrev ant (c : Dev nD) : Flat.Idx → EReal := m ((c : Thread nD τ).loc main_arg2)

/-- The one-element vector holding the count of the first `n` blocks. -/
def level (c : Dev nD) (n : ℕ) : Vec Ideal S1x1 .f32 := fun _ => count (syn m c) (ant m c) (n * blockLen)

/-- Every element of that vector is the count. -/
theorem level_apply (c : Dev nD) (n : ℕ) (i : S1x1.Idx) : level m c n i = count (syn m c) (ant m c) (n * blockLen) := rfl

/-- A pair of block elements at point `t` is pair number `t * 524288 + (r * 128 + l)`. -/
theorem pick_blk (c : Dev nD) (t : Fin cfg0.N) (r : Fin 4096) (l : Fin 128) :
    pick (antBlk m c t (ix2 r l)) (synBlk m c t (ix2 r l))
      = term (syn m c) (ant m c) (t.val * blockLen + (r.val * 128 + l.val)) := by
  rw [antBlk_apply, synBlk_apply]
  exact (term_of_lt (syn m c) (ant m c) _ (flat_lt t r l)).symm

/-- One step: over the count of the first `n` blocks, the body at point `n` leaves the count of the first `n + 1`. -/
theorem step_level (c : Dev nD) (t : Fin cfg0.N) (prev : Vec Ideal S1x1 .f32)
    (hprev : ∀ i, prev i = count (syn m c) (ant m c) (t.val * blockLen)) :
    k0_pay2 (F := Ideal) (antBlk m c t) (synBlk m c t) prev = level m c (t.val + 1) := by
  funext i
  rw [Step.step_apply, hprev i]
  show _ = count (syn m c) (ant m c) ((t.val + 1) * blockLen)
  rw [count_succ, ← block_total]
  exact congrArg (count (syn m c) (ant m c) (t.val * blockLen) + ·)
    (Finset.sum_congr rfl fun r _ => Finset.sum_congr rfl fun l _ => pick_blk m c t r l)

/-- The first point: reset, then block 0. -/
theorem first_point (c : Dev nD) (t : Fin cfg0.N) (h0 : t.val % 16 = 0) (hz : t.val = 0) :
    outsAt0 m c t.val t.isLt = (level m c (t.val + 1), level m c (t.val + 1)) := by
  have e : k0_pay2 (F := Ideal) (antBlk m c t) (synBlk m c t) (k0_pay1 (F := Ideal)) = level m c (t.val + 1) :=
    step_level m c t (k0_pay1 (F := Ideal)) fun i => by rw [Step.zero_apply, hz, count_zero]
  rw [outsAt0_A m c t h0, Prod.mk.injEq]
  exact ⟨(Pieces.out_first c (grid0.coords t) (ms0_0 t) (hs0_0 t) (ms0_1 t) (hs0_1 t) (ms0_2 t) (hs0_2 t) scM0_0
        (Memref.isWhole_whole _) ((hcond0_0 t).mpr h0) (synBlk m c t) (antBlk m c t)).trans e,
    (Pieces.scratch_first c (grid0.coords t) (ms0_0 t) (hs0_0 t) (ms0_1 t) (hs0_1 t) (ms0_2 t) (hs0_2 t) scM0_0
        (Memref.isWhole_whole _) ((hcond0_0 t).mpr h0) (synBlk m c t) (antBlk m c t)).trans e⟩

/-- A later point: over what the point before left. -/
theorem later_point (c : Dev nD) (t : Fin cfg0.N) (h0 : ¬t.val % 16 = 0)
    (ih : outsAt0 m c (t.val - 1) (Nat.lt_of_le_of_lt (Nat.sub_le _ _) t.isLt) = (level m c t.val, level m c t.val)) :
    outsAt0 m c t.val t.isLt = (level m c (t.val + 1), level m c (t.val + 1)) := by
  have e : k0_pay2 (F := Ideal) (antBlk m c t) (synBlk m c t)
      (outsAt0 m c (t.val - 1) (Nat.lt_of_le_of_lt (Nat.sub_le _ _) t.isLt)).2 = level m c (t.val + 1) :=
    step_level m c t _ fun i => by rw [ih]; rfl
  rw [outsAt0_B m c t h0, Prod.mk.injEq]
  exact ⟨(Pieces.out_later c (grid0.coords t) (ms0_0 t) (hs0_0 t) (ms0_1 t) (hs0_1 t) (ms0_2 t) (hs0_2 t) scM0_0
        (Memref.isWhole_whole _) (fun h => h0 ((hcond0_0 t).mp h)) (synBlk m c t) (antBlk m c t)
        (outsAt0 m c (t.val - 1) (Nat.lt_of_le_of_lt (Nat.sub_le _ _) t.isLt)).2).trans e,
    (Pieces.scratch_later c (grid0.coords t) (ms0_0 t) (hs0_0 t) (ms0_1 t) (hs0_1 t) (ms0_2 t) (hs0_2 t) scM0_0
        (Memref.isWhole_whole _) (fun h => h0 ((hcond0_0 t).mp h)) (synBlk m c t) (antBlk m c t)
        (outsAt0 m c (t.val - 1) (Nat.lt_of_le_of_lt (Nat.sub_le _ _) t.isLt)).2).trans e⟩

/-- After point `n` both the output block and the scratch hold the count of the first `n + 1` blocks. -/
theorem outsAt_eq (c : Dev nD) : ∀ (n : ℕ) (h : n < cfg0.N), outsAt0 m c n h = (level m c (n + 1), level m c (n + 1))
  | 0, h => first_point m c ⟨0, h⟩ rfl rfl
  | n + 1, h => by
    have hN : cfg0.N = 16 := N_0
    exact later_point m c ⟨n + 1, h⟩ (by dsimp only; omega) (outsAt_eq c n (Nat.lt_of_succ_lt h))

end Cert.KernelIdeal.Acc

end
-- ==== Proof.KFinal.lean ====
/-
  The kernel's result array after the region: a constant carried from the last point to the array.

  The output window's block index never moves, so the pipeline writes the output block back once, after the last of
  the sixteen points. If the output block then holds the one-element vector of a number `K`, the one-by-one result
  array ends holding `K` (`final_const`), and viewed as a scalar it is still `K` (`scalar_const`): a vector all of
  whose elements are `K` reads `K` through any rectangle and at any index of any cast of it.

  `K` is kept a variable: what it is (for this kernel, a count of pairs) plays no part in how a block travels to its
  array.
-/
import proofs.«118050_j44487271252810_1_alg».proof.Defs
import proofs.«118050_j44487271252810_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (K : EReal)

/-- The one-by-one result array holding `K`. -/
abbrev constArr (c : Dev nD) : Buf (Elt Ideal) ((c : Thread nD τ).loc main_v2) := fun _ => K

/-- The last grid point. -/
abbrev lastPoint : Fin cfg0.N := ⟨15, by rw [show cfg0.N = 16 from N_0]; decide⟩

/-- The one write-back writes `K`: it happens after the last point only, and a vector whose every element is `K` reads
    `K` through whatever rectangle it is read. -/
theorem flushed_const (c : Dev nD)
    (hK : ∀ t : Fin cfg0.N, t.val + 1 = 16 → (outsAt0 m c t.val t.isLt).1 = fun _ => K)
    (t : Fin cfg0.N) (hf : (cfg0.win 2).flush t = true) :
    (dats m 0 c).flushed 2 t = ((cfg0.win 2).blk t).view.read (Elt Ideal) (constArr K c) := by
  have hN : cfg0.N = 16 := N_0
  have h16 : t.val + 1 = 16 := by have := (flush0_2 t).mp hf; have := t.isLt; omega
  show (cfg0.win 2).cut (grid0.coords t) ((dats m 0 c).after 2 t) = _
  rw [after0_2, hK t h16]
  funext y
  rw [View.read_apply]
  rfl

/-- The result array after the region: the last point's block is the whole one-by-one array. -/
theorem final_const (c : Dev nD)
    (hK : ∀ t : Fin cfg0.N, t.val + 1 = 16 → (outsAt0 m c t.val t.isLt).1 = fun _ => K) :
    (dats m 0 c).arrAt 2 cfg0.N = constArr K c :=
  (dats m 0 c).arrAt_eq_of_cover 2 (constArr K c) (flushed_const m K c hK) fun i =>
    ⟨lastPoint, (flush0_2 lastPoint).mpr rfl, by
      show i ∈ ((View.whole main_v2).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 1 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]
        omega⟩

/-- The one-by-one array of `K` viewed as a scalar is the scalar `K`. -/
theorem scalar_const : shapeCast S_ (fun _ : S1x1.Idx => K) shapeCasts_S1x1_S_ = fun _ => K := by
  funext i
  exact shapeCast_apply (fun _ : S1x1.Idx => K) shapeCasts_S1x1_S_ i (ix2 (0 : Fin 1) (0 : Fin 1)) (by
    have h0 : (Shape.rowMajor (s := S_) i).val = 0 := Shape.rowMajorPi_zero _ i
    rw [Shape.rowMajor_val_two, h0]
    show (0 : ℕ) * 1 + 0 = 0
    rfl)

end Cert.KernelIdeal.Final

end
-- ==== Proof.KTail.lean ====
/-
  The host operations after the region, applied to a result array holding a number `K`.

  They view the one-by-one array as a scalar, divide by the word of 2^23 and negate. The first keeps `K`
  (`Final.scalar_const`); the other two are the programs' common last operations, `Spec.finish`, left closed.
-/
import proofs.«118050_j44487271252810_1_alg».proof.Proof.KFinal
import proofs.«118050_j44487271252810_1_alg».proof.Proof.Spec
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (K : EReal)

theorem tail_const (c : Dev nD) (hfinal : (dats m 0 c).arrAt 2 cfg0.N = constArr K c) :
    Pipeline.afterTail₀ cfgs (dats m) 0 (V0 m) [hostOps1] c main_v5 = Cert.Spec.finish fun _ => K := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v2) = constArr K c :=
    (Pipeline.withArrays_arr spec0 launch0.win.arr_inj c _ _ 2).trans hfinal
  rw [e]
  exact congrArg Cert.Spec.finish (scalar_const K)

end Cert.KernelIdeal.Final

end
-- ==== Proof.KRun.lean ====
/-
  The kernel program's result on the extended reals.

  After the sixteenth point the output block holds the count of sixteen blocks, which are all 8388608 pairs
  (`last_block`); so the result array ends holding it (`Final.final_const`) and the host operations after the region
  turn it into `Spec.result` of the two score arrays (`tail_eq`). The program's run ends with its result there and
  its three arguments as they began (`run`).
-/
import proofs.«118050_j44487271252810_1_alg».proof.Proof.KAcc
import proofs.«118050_j44487271252810_1_alg».proof.Proof.KTail

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Acc

variable (m : (ℓ : Loc nD τ sig) → Buf (Elt Ideal) ℓ) (ρ : Dev nD → PrngReg)

/-- Sixteen blocks are all the pairs. -/
theorem level_last (c : Dev nD) : level m c 16 = fun _ => Cert.Spec.count (syn m c) (ant m c) 8388608 := rfl

/-- After the last point the output block holds the count of all pairs. -/
theorem last_block (c : Dev nD) (t : Fin cfg0.N) (h16 : t.val + 1 = 16) :
    (outsAt0 m c t.val t.isLt).1 = fun _ => Cert.Spec.count (syn m c) (ant m c) 8388608 := by
  rw [outsAt_eq m c t.val t.isLt, h16]
  exact level_last m c

/-- The host operations after the region give the common result. -/
theorem tail_eq (c : Dev nD) :
    Pipeline.afterTail₀ cfgs (dats m) 0 (V0 m) [hostOps1] c main_v5 = Cert.Spec.result (syn m c) (ant m c) :=
  Final.tail_const m (Cert.Spec.count (syn m c) (ant m c) 8388608) c
    (Final.final_const m (Cert.Spec.count (syn m c) (ant m c) 8388608) c (last_block m c))

/-- The run, read: the result at the common result of the second and third arguments, the arguments unchanged. -/
theorem run : θ_run defs (onTc (τ := τ) (main (F := Ideal))) ⟨m, fun _ => 0, ρ⟩ fun r => ∀ c : Dev nD,
      r.2.mem ((c.tc : Thread nD τ).loc main_v5)
        = Cert.Spec.result (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c =>
      ⟨((h c).2 main_v5 (Pipeline.mem_restRefs_of main_v5 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Total

end
-- ==== Proof.RefSide.lean ====
/-
  The reference program's result on the extended reals.

  The reference compares the two flat score arrays element by element, selects the word of one or of zero, adds all
  8388608 selected values in one sum started at the word of `0.0`, divides by the word of 2^23 and negates. Its sum
  stage is therefore the count of all pairs (`Spec.sum_all`), and its result `Spec.result` of the two score arrays.
  The run itself and the reading of each operation at an index are the generated modules'; written here is only the
  identification with the common vocabulary.
-/
import proofs.«118050_j44487271252810_1_alg».proof.Defs
import proofs.«118050_j44487271252810_1_alg».proof.Proof.Gen.ReferenceIdeal
import proofs.«118050_j44487271252810_1_alg».proof.Proof.Gen.ReferenceIdeal.Run
import proofs.«118050_j44487271252810_1_alg».proof.Proof.Gen.ReferenceIdeal.Read
import proofs.«118050_j44487271252810_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

/-- The selected value at a flat index is that pair's value. -/
theorem selected_apply (syn ant : Flat.Idx → EReal) (j : S8388608.Idx) :
    val_main_v1 (F := Ideal) syn ant j = pick (ant j) (syn j) := by
  rw [val_main_v1_apply, val_main_v0_apply, val_main_call0_v0_apply, val_main_call0_v1_apply, val_main_cst_apply,
    val_main_cst_0_apply]
  rfl

/-- The sum stage is the count of all pairs. -/
theorem sum_stage (syn ant : Flat.Idx → EReal) :
    val_main_v2 (F := Ideal) syn ant = fun _ => count syn ant 8388608 := by
  funext i
  rw [val_main_v2_apply, val_main_cst_1_apply]
  unfold Cert.Spec.count
  refine congrArg (Ideal.ofBits .f32 0x00000000#32 + ·) ?_
  rw [← sum_all]
  exact Finset.sum_congr rfl fun j _ => selected_apply syn ant j

/-- The reference's result term is the common result. -/
theorem result_eq (syn ant : Flat.Idx → EReal) : val_main_v4 (F := Ideal) syn ant = result syn ant := by
  unfold val_main_v4 val_main_v3 result finish
  rw [sum_stage]
  rfl

/-- The reference's run, read: its result at the common result of its second and third arguments, its arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = result (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v4_eq _ _).trans (result_eq _ _)), (h c).2⟩)
    (Cert.ReferenceIdeal.Value.run (F := Ideal) m ρ)

end Cert.ReferenceIdeal.RefValue

end
-- ==== Proof.lean ====
/-
  Counting the pairs whose antonymy score exceeds their synonymy score: the kernel against its reference.

  Both programs take three flat arrays of 8388608 floats and never read the first. Over the extended reals both
  return

      − ( 0 + ∑ over the 8388608 pairs of  [1 if ant j > syn j else 0] )  /  2^23 .

  The reference compares the flat arrays element by element, selects one or zero, and adds all the selected values in
  one sum. The kernel reshapes both arrays to 65536 rows of 128 lanes and walks a grid of sixteen points; at point `t`
  it reads rows `4096 t … 4096 t + 4095`, compares and selects in the same way, adds the 128 lanes of every row and
  then the 4096 row totals, and adds this block total to a one-element running count it keeps in scratch memory (reset
  to zero at the first point) and copies to its one-by-one output block, which the pipeline writes back after the last
  point. The host then divides by 2^23 and negates, exactly as the reference does.

  So the claim is a statement about the order of a finite sum. Addition on the extended reals is commutative and
  associative with no exception, so the finiteness precondition is never used. The proof:

    Sums, Spec   — re-indexing of finite sums, and the common vocabulary (`pick`, `term`, `count`, `result`);
    KPieces      — what one run of the body leaves in the scratch and the output block, as the body's arithmetic term;
    KStep        — that term on the extended reals: previous contents plus the block total, rows then lanes;
    KBlocks      — element (r, l) of block t is flat element t · 524288 + r · 128 + l;
    KAcc         — by induction on the grid point, the running count is the count of the blocks seen so far;
    KFinal, KTail, KRun — the block reaches the result array, the host tail is applied, the run is read;
    RefSide      — the reference's one sum is the count of all pairs.

  The three frame claims are the generated frame runs (for the reference, its generated run with the result dropped);
  the idealization rewrote nothing, so there is nothing to preserve.
-/
import proofs.«118050_j44487271252810_1_alg».proof.Defs
import proofs.«118050_j44487271252810_1_alg».proof.Proof.Gen.Kernel
import proofs.«118050_j44487271252810_1_alg».proof.Proof.Gen.Kernel.Frame
import proofs.«118050_j44487271252810_1_alg».proof.Proof.Gen.KernelIdeal
import proofs.«118050_j44487271252810_1_alg».proof.Proof.Gen.KernelIdeal.Frame
import proofs.«118050_j44487271252810_1_alg».proof.Proof.Gen.ReferenceIdeal
import proofs.«118050_j44487271252810_1_alg».proof.Proof.Gen.ReferenceIdeal.Run
import proofs.«118050_j44487271252810_1_alg».proof.Proof.Gen.Pre_finite_inputs
import proofs.«118050_j44487271252810_1_alg».proof.Proof.KRun
import proofs.«118050_j44487271252810_1_alg».proof.Proof.RefSide

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at `Spec.result` of the same two score arrays. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Total.run m ρ, ?_⟩
  refine (θ_run Cert.ReferenceIdeal.defs _ _).mono (fun _ h c => ⟨(h c).1.trans ?_, (h c).2⟩)
    (Cert.ReferenceIdeal.RefValue.run m' ρ')
  rw [(hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
